-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x1 .f32) (main_arg3 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S4096x4096 : Shape := ⟨2, ![4096, 4096]⟩
abbrev S1x11008 : Shape := ⟨2, ![1, 11008]⟩
abbrev S4096x11008 : Shape := ⟨2, ![4096, 11008]⟩
abbrev S256x4096 : Shape := ⟨2, ![256, 4096]⟩
abbrev S256x1 : Shape := ⟨2, ![256, 1]⟩
abbrev S1x256 : Shape := ⟨2, ![1, 256]⟩
abbrev S256x256 : Shape := ⟨2, ![256, 256]⟩
abbrev S2x2048x11008 : Shape := ⟨3, ![2, 2048, 11008]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S4096x4096, .f32⟩
  | .hbm, ⟨5, _⟩ => ⟨S1x11008, .f32⟩
  | .hbm, ⟨6, _⟩ => ⟨S4096x11008, .f32⟩
  | .hbm, ⟨7, _⟩ => ⟨S2x2048x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  shapeCasts_S256x4096_S256x4096 : S256x4096.ShapeCasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S4096x11008_S2x2048x11008 : S4096x11008.ShapeCasts S2x2048x11008
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x11008.size a
  hwx0_4 : ∀ i : grid0.Coords, EltTy.bits .f32 = 32 ∨ (Rect.block (s := S4096x11008) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S2x2048x11008 : Shape := ⟨3, ![2, 2048, 11008]⟩
abbrev S1x1x11008 : Shape := ⟨3, ![1, 1, 11008]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S2x2048x11008, .f32⟩
  | .hbm, ⟨7, _⟩ => ⟨S1x1x11008, .f32⟩
  | .hbm, ⟨8, _⟩ => ⟨S2x2048x11008, .f32⟩
  | .hbm, ⟨9, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.LibBroadcastColumn.lean ====
/-
  A column copied along a new trailing extent, read at an index.
-/
import Idealize.ShloMosaic.Lib.ValueIdx
import Idealize.ShloMosaic.Lib.Pipeline.Value

namespace Idealize.ShloMosaic.ValueIdx

/-- A `[a, 1]` column broadcast to `[a, b]` reads, at `(p, c)`, the column's entry of row `p`: every entry of a
    row is that row's single entry (the case `a = 1` included, where the row index can only be `0`). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Tile.lean ====
/-
  What one grid point computes, entry by entry.
  The body loads a 256-row block of the activation (xb), a 256-row block of the stored weight (wb), the 256
  scales of those weight rows (sb, a column) and the 256 bias entries of those outputs (bb, a row). It copies
  each scale along its weight row and multiplies, narrows both operands to half precision (the identity on
  exact values), contracts the feature axis of the activation block with the feature axis of the scaled weight
  block into a zero accumulator, and adds the bias row copied down the rows. Entry (p, q) of the stored tile is

      Σ_k xb[p,k] · (wb[q,k] · sb[q,0]) + bb[0,q].
-/
import proofs.«121049_j27427661152808_1_alg».proof.Proof.Gen.KernelIdeal.Skeleton
import proofs.«121049_j27427661152808_1_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The product's operand indices: output (p, q) and feature k read the activation at (p, k), the weight at (q, k) -/

theorem lhs_row (j : S256x256.Idx) (r : dot_S256x4096_S256x4096_S256x256_1_1_0_0_n_n.contr.Idx) :
    (dot_S256x4096_S256x4096_S256x256_1_1_0_0_n_n.lhsIdx j r 0).val = (j 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_feature (j : S256x256.Idx) (r : dot_S256x4096_S256x4096_S256x256_1_1_0_0_n_n.contr.Idx) :
    (dot_S256x4096_S256x4096_S256x256_1_1_0_0_n_n.lhsIdx j r 1).val = (r ⟨0, by decide⟩).val :=
  dot_S256x4096_S256x4096_S256x256_1_1_0_0_n_n.lhsIdx_val_of_single rfl j r
theorem rhs_row (j : S256x256.Idx) (r : dot_S256x4096_S256x4096_S256x256_1_1_0_0_n_n.contr.Idx) :
    (dot_S256x4096_S256x4096_S256x256_1_1_0_0_n_n.rhsIdx j r 0).val = (j 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_feature (j : S256x256.Idx) (r : dot_S256x4096_S256x4096_S256x256_1_1_0_0_n_n.contr.Idx) :
    (dot_S256x4096_S256x4096_S256x256_1_1_0_0_n_n.rhsIdx j r 1).val = (r ⟨0, by decide⟩).val :=
  dot_S256x4096_S256x4096_S256x256_1_1_0_0_n_n.rhsIdx_val_of_single rfl j r

/-! ## The tile -/

/-- Entry (p, q) of the value the body stores: the sum over the features of the activation block's row p against
    the scaled weight block's row q, plus the bias of column q. -/
theorem tile_apply (wb : FVec Ideal S256x4096 .f32) (sb : FVec Ideal S256x1 .f32) (xb : FVec Ideal S256x4096 .f32) (bb : FVec Ideal S1x256 .f32)
    (p q : Fin 256) :
    k0_pay1 (F := Ideal) wb sb xb bb (ix2 p q)
      = (∑ k : Fin 4096, xb (ix2 p k) * (wb (ix2 q k) * sb (ix2 q (0 : Fin 1)))) + bb (ix2 (0 : Fin 1) q) := by
  unfold k0_pay1
  refine (addf_apply _ _ _).trans ?_
  refine congrArg₂ (· + ·) ?_ ?_
  · refine (Ideal.matmul_constant_zero_apply dot_S256x4096_S256x4096_S256x256_1_1_0_0_n_n none _ _ (ix2 p q)).trans ?_
    rw [← Equiv.sum_comp (contrEquiv1 dot_S256x4096_S256x4096_S256x256_1_1_0_0_n_n 4096 rfl rfl).symm]
    refine Finset.sum_congr rfl fun k _ => ?_
    have hk := contrEquiv1_symm_val dot_S256x4096_S256x4096_S256x256_1_1_0_0_n_n 4096 rfl rfl k
    have el : dot_S256x4096_S256x4096_S256x256_1_1_0_0_n_n.lhsIdx (ix2 p q) ((contrEquiv1 dot_S256x4096_S256x4096_S256x256_1_1_0_0_n_n 4096 rfl rfl).symm k) = ix2 p k := funext fun a => Fin.ext (by
      match a with
      | ⟨0, _⟩ => exact lhs_row _ _
      | ⟨1, _⟩ => exact (lhs_feature _ _).trans hk)
    have er : dot_S256x4096_S256x4096_S256x256_1_1_0_0_n_n.rhsIdx (ix2 p q) ((contrEquiv1 dot_S256x4096_S256x4096_S256x256_1_1_0_0_n_n 4096 rfl rfl).symm k) = ix2 q k := funext fun a => Fin.ext (by
      match a with
      | ⟨0, _⟩ => exact rhs_row _ _
      | ⟨1, _⟩ => exact (rhs_feature _ _).trans hk)
    rw [el, er, truncf_apply, truncf_apply, shapeCast_self, mulf_apply, broadcastTo_a1_ab_apply]
  · rw [broadcastTo_1b_ab_apply, shapeCast_self]

end Cert.KernelIdeal.Tile

end
-- ==== Proof.DequantLinear.lean ====
/-
  The function both programs compute: a linear layer whose weight is stored with one scale per output row.
  For an activation x[b,s,k], a stored weight w[o,k], a column of scales σ[o,0] and a bias β[o],

      y[b,s,o] = Σ_k x[b,s,k] · (w[o,k] · σ[o,0]) + β[o].

  `layer` is that function. `layerRows` is the same function with the two leading axes merged into one
  (row r = 2048·b + s) and the bias carried as a one-row matrix: the form in which a tiled matrix product
  produces it. `layerRows_reshape` says the two agree under the row-major reshapes between the two layouts.
  Factors and summands keep the order in which they are written; no law of the extended reals is used.
-/
import Idealize.ShloMosaic.PureOps.Ideal
import Idealize.ShloMosaic.Lib.ValueIdx
import Idealize.ShloMosaic.Lib.ValueLayout
import Idealize.ShloMosaic.Lib.Pipeline.Value

noncomputable section

namespace Cert.DequantLinear

open Idealize.ShloMosaic Idealize.ShloMosaic.ValueIdx

/-- The activation, batch × sequence × features. -/
abbrev Act : Shape := ⟨3, ![2, 2048, 4096]⟩
/-- The activation with batch and sequence merged into rows. -/
abbrev ActRows : Shape := ⟨2, ![4096, 4096]⟩
/-- The stored weight, outputs × features. -/
abbrev Wt : Shape := ⟨2, ![11008, 4096]⟩
/-- One scale per output row of the weight. -/
abbrev Scale : Shape := ⟨2, ![11008, 1]⟩
/-- The bias, one entry per output. -/
abbrev Bias : Shape := ⟨1, ![11008]⟩
/-- The bias as a one-row matrix. -/
abbrev BiasRow : Shape := ⟨2, ![1, 11008]⟩
/-- The result with batch and sequence merged into rows. -/
abbrev OutRows : Shape := ⟨2, ![4096, 11008]⟩
/-- The result, batch × sequence × outputs. -/
abbrev Out : Shape := ⟨3, ![2, 2048, 11008]⟩

/-- The layer: entry (b, s, o) is the sum over the features k of x[b,s,k] · (w[o,k] · σ[o,0]), plus β[o]. -/
def layer (x : FVec Ideal Act .f32) (w : FVec Ideal Wt .f32) (σ : FVec Ideal Scale .f32) (β : FVec Ideal Bias .f32) :
    FVec Ideal Out .f32 :=
  fun i => (∑ k : Fin 4096, x (ix3 (i 0) (i 1) k) * (w (ix2 (i 2) k) * σ (ix2 (i 2) (0 : Fin 1)))) + β (ix1 (i 2))

/-- The same over merged rows: entry (r, o) is the sum over k of X[r,k] · (w[o,k] · σ[o,0]), plus B[0,o]. -/
def layerRows (X : FVec Ideal ActRows .f32) (w : FVec Ideal Wt .f32) (σ : FVec Ideal Scale .f32) (B : FVec Ideal BiasRow .f32) :
    FVec Ideal OutRows .f32 :=
  fun j => (∑ k : Fin 4096, X (ix2 (j 0) k) * (w (ix2 (j 1) k) * σ (ix2 (j 1) (0 : Fin 1)))) + B (ix2 (0 : Fin 1) (j 1))

/-- `layerRows` at explicit coordinates. -/
theorem layerRows_ix (X : FVec Ideal ActRows .f32) (w : FVec Ideal Wt .f32) (σ : FVec Ideal Scale .f32) (B : FVec Ideal BiasRow .f32)
    (r : Fin 4096) (o : Fin 11008) :
    layerRows X w σ B (ix2 r o)
      = (∑ k : Fin 4096, X (ix2 r k) * (w (ix2 o k) * σ (ix2 o (0 : Fin 1)))) + B (ix2 (0 : Fin 1) o) := rfl

/-- `layer` at explicit coordinates. -/
theorem layer_ix (x : FVec Ideal Act .f32) (w : FVec Ideal Wt .f32) (σ : FVec Ideal Scale .f32) (β : FVec Ideal Bias .f32)
    (b : Fin 2) (s : Fin 2048) (o : Fin 11008) :
    layer x w σ β (ix3 b s o)
      = (∑ k : Fin 4096, x (ix3 b s k) * (w (ix2 o k) * σ (ix2 o (0 : Fin 1)))) + β (ix1 o) := rfl

/-- Merging batch and sequence into rows before the product and splitting them again after it changes nothing:
    row 2048·b + s of the merged activation is x[b,s,·], and row 2048·b + s of the merged result is y[b,s,·];
    the one-row bias at (0, o) is β[o]. -/
theorem layerRows_reshape (x : FVec Ideal Act .f32) (w : FVec Ideal Wt .f32) (σ : FVec Ideal Scale .f32) (β : FVec Ideal Bias .f32)
    (hx : Act.ShapeCasts ActRows) (hβ : Bias.ShapeCasts BiasRow) (ho : OutRows.ShapeCasts Out) :
    shapeCast Out (layerRows (shapeCast ActRows x hx) w σ (shapeCast BiasRow β hβ)) ho = layer x w σ β := by
  funext i
  obtain ⟨b, s, o, rfl⟩ : ∃ (b : Fin 2) (s : Fin 2048) (o : Fin 11008), i = ix3 b s o := ⟨i 0, i 1, i 2, eq_ix3 i⟩
  have hr : b.val * 2048 + s.val < 4096 := by have := b.isLt; have := s.isLt; omega
  rw [shapeCast_apply _ ho (ix3 b s o) (ix2 (⟨b.val * 2048 + s.val, hr⟩ : Fin 4096) o) (by
    rw [Shape.rowMajor_val_two, Shape.rowMajor_val_three]; rfl)]
  rw [layerRows_ix, layer_ix]
  refine congrArg₂ (· + ·) (Finset.sum_congr rfl fun k _ => ?_) (shapeCast_a_1a_apply β hβ (0 : Fin 1) o)
  refine congrArg (· * (w (ix2 o k) * σ (ix2 o (0 : Fin 1)))) ?_
  exact shapeCast_apply x hx (ix2 (⟨b.val * 2048 + s.val, hr⟩ : Fin 4096) k) (ix3 b s k) (by
    rw [Shape.rowMajor_val_three, Shape.rowMajor_val_two]; rfl)

end Cert.DequantLinear

end
-- ==== Proof.Rows.lean ====
/-
  The array the region leaves, as one function of the arrays it finds.
  The grid has 16 × 43 points; point t sits at tile (t / 43, t mod 43) and writes back the 256 × 256 tile of the
  result at block row t / 43 and block column t mod 43. At that point the activation window holds the 256 rows of
  block row t / 43 (all features), the weight, scale and bias windows the 256 outputs of block column t mod 43.
  So the tile the body stores (Proof/Tile.lean) is, entry by entry, the corresponding tile of `layerRows` of the
  four arrays, the 16 × 43 tiles fill the 4096 × 11008 result, and the array after the run is `layerRows`.
-/
import proofs.«121049_j27427661152808_1_alg».proof.Proof.Gen.KernelIdeal.Frame
import proofs.«121049_j27427661152808_1_alg».proof.Proof.Tile
import proofs.«121049_j27427661152808_1_alg».proof.Proof.DequantLinear
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.ValueIdx Cert.DequantLinear Cert.KernelIdeal.Tile
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point t, decided over the 688 points: the result's tile is at block row
    t / 43 and block column t mod 43; the activation's block follows the tile's row, the weight's, the scales' and
    the bias' follow its column, and every other block coordinate is 0. -/
theorem block_positions : ∀ t : Fin cfg0.N,
    win0_4.index t (0 : Fin 2) = t.val / 43 ∧ win0_4.index t (1 : Fin 2) = t.val % 43
    ∧ win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- The tile against `layerRows`, over plain arrays and blocks: if the blocks hold the rows of X, W, the scales and
    the bias that entry i of the result depends on, the tile's entry j is `layerRows` at i. -/
theorem tile_eq_layerRows_at
    (X : FVec Ideal S4096x4096 .f32) (W : FVec Ideal S11008x4096 .f32) (Sc : FVec Ideal S11008x1 .f32) (B : FVec Ideal S1x11008 .f32)
    (xb wb : FVec Ideal S256x4096 .f32) (sb : FVec Ideal S256x1 .f32) (bb : FVec Ideal S1x256 .f32)
    (j : S256x256.Idx) (i : S4096x11008.Idx)
    (hx : ∀ k : Fin 4096, xb (ix2 (j 0) k) = X (ix2 (i 0) k))
    (hw : ∀ k : Fin 4096, wb (ix2 (j 1) k) = W (ix2 (i 1) k))
    (hs : sb (ix2 (j 1) (0 : Fin 1)) = Sc (ix2 (i 1) (0 : Fin 1)))
    (hb : bb (ix2 (0 : Fin 1) (j 1)) = B (ix2 (0 : Fin 1) (i 1))) :
    k0_pay1 (F := Ideal) wb sb xb bb j = layerRows X W Sc B i := by
  obtain ⟨p, q, rfl⟩ : ∃ (p q : Fin 256), j = ix2 p q := ⟨j 0, j 1, eq_ix2 j⟩
  obtain ⟨r, o, rfl⟩ : ∃ (r : Fin 4096) (o : Fin 11008), i = ix2 r o := ⟨i 0, i 1, eq_ix2 i⟩
  have hx' : ∀ k : Fin 4096, xb (ix2 p k) = X (ix2 r k) := hx
  have hw' : ∀ k : Fin 4096, wb (ix2 q k) = W (ix2 o k) := hw
  have hs' : sb (ix2 q (0 : Fin 1)) = Sc (ix2 o (0 : Fin 1)) := hs
  have hb' : bb (ix2 (0 : Fin 1) q) = B (ix2 (0 : Fin 1) o) := hb
  rw [tile_apply, layerRows_ix, hs', hb']
  exact congrArg (· + B (ix2 (0 : Fin 1) o)) (Finset.sum_congr rfl fun k _ => by rw [hx' k, hw' k])

/-! ## The four blocks at a point, read off the arrays the region finds -/

/-- Row (j 0) of the activation block at point t is row (tile row · 256 + j 0) of the merged activation. -/
theorem act_block (c : Dev nD) (t : Fin cfg0.N) (j : S256x256.Idx) (k : Fin 4096) :
    iblk m c 0 t (ix2 (j 0) k) = V m c main_v0 (ix2 ((((cfg0.win 4).blk t).view.emb j) 0) k) := by
  obtain ⟨-, -, e00, e01, -⟩ := block_positions t
  show V m c main_v0 (((cfg0.win 0).blk t).view.emb (ix2 (j 0) k)) = _
  refine congrArg (V m c main_v0) (funext fun a => Fin.ext ?_)
  match a with
  | ⟨0, _⟩ => show win0_0.index t (0 : Fin 2) * 256 + 1 * (j 0).val = win0_4.index t (0 : Fin 2) * 256 + 1 * (j 0).val; omega
  | ⟨1, _⟩ => show win0_0.index t (1 : Fin 2) * 4096 + 1 * k.val = k.val; omega

/-- Row (j 1) of the weight block is row (tile column · 256 + j 1) of the weight. -/
theorem weight_block (c : Dev nD) (t : Fin cfg0.N) (j : S256x256.Idx) (k : Fin 4096) :
    iblk m c 1 t (ix2 (j 1) k) = V m c main_arg1 (ix2 ((((cfg0.win 4).blk t).view.emb j) 1) k) := by
  obtain ⟨-, -, -, -, e10, e11, -⟩ := block_positions t
  show V m c main_arg1 (((cfg0.win 1).blk t).view.emb (ix2 (j 1) k)) = _
  refine congrArg (V m c main_arg1) (funext fun a => Fin.ext ?_)
  match a with
  | ⟨0, _⟩ => show win0_1.index t (0 : Fin 2) * 256 + 1 * (j 1).val = win0_4.index t (1 : Fin 2) * 256 + 1 * (j 1).val; omega
  | ⟨1, _⟩ => show win0_1.index t (1 : Fin 2) * 4096 + 1 * k.val = k.val; omega

/-- Entry (j 1) of the scale block is the scale of weight row (tile column · 256 + j 1). -/
theorem scale_block (c : Dev nD) (t : Fin cfg0.N) (j : S256x256.Idx) :
    iblk m c 2 t (ix2 (j 1) (0 : Fin 1)) = V m c main_arg2 (ix2 ((((cfg0.win 4).blk t).view.emb j) 1) (0 : Fin 1)) := by
  obtain ⟨-, -, -, -, -, -, e20, e21, -⟩ := block_positions t
  show V m c main_arg2 (((cfg0.win 2).blk t).view.emb (ix2 (j 1) (0 : Fin 1))) = _
  refine congrArg (V m c main_arg2) (funext fun a => Fin.ext ?_)
  match a with
  | ⟨0, _⟩ => show win0_2.index t (0 : Fin 2) * 256 + 1 * (j 1).val = win0_4.index t (1 : Fin 2) * 256 + 1 * (j 1).val; omega
  | ⟨1, _⟩ => show win0_2.index t (1 : Fin 2) * 1 + 1 * 0 = 0; omega

/-- Entry (j 1) of the bias block is the bias of output (tile column · 256 + j 1). -/
theorem bias_block (c : Dev nD) (t : Fin cfg0.N) (j : S256x256.Idx) :
    iblk m c 3 t (ix2 (0 : Fin 1) (j 1)) = V m c main_v1 (ix2 (0 : Fin 1) ((((cfg0.win 4).blk t).view.emb j) 1)) := by
  obtain ⟨-, -, -, -, -, -, -, -, e30, e31⟩ := block_positions t
  show V m c main_v1 (((cfg0.win 3).blk t).view.emb (ix2 (0 : Fin 1) (j 1))) = _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 256 + 1 * (j 1).val = win0_4.index t (1 : Fin 2) * 256 + 1 * (j 1).val; omega

/-! ## What a point writes back, the cover, the array after the run -/

/-- What point t writes back is tile t of `layerRows` of the arrays the region finds. -/
theorem flushed_eq (c : Dev nD) (t : Fin cfg0.N) :
    (dats m 0 c).flushed 4 t = ((cfg0.win 4).blk t).view.read (Elt Ideal)
      (layerRows (V m c main_v0) (V m c main_arg1) (V m c main_arg2) (V m c main_v1)) := by
  show (cfg0.win 4).cut (grid0.coords t) ((dats m 0 c).after 4 t) = _
  rw [after0_4]
  unfold out0_4
  rw [View.canon_unit_zero zero_offsets]
  simp only [View.ld_unit_zero (S := S256x4096) zero_offsets, View.ld_unit_zero (S := S256x1) zero_offsets,
    View.ld_unit_zero (S := S1x256) zero_offsets]
  funext j
  show k0_pay1 (F := Ideal) (iblk m c 1 t) (iblk m c 2 t) (iblk m c 0 t) (iblk m c 3 t) j
    = layerRows (V m c main_v0) (V m c main_arg1) (V m c main_arg2) (V m c main_v1) (((cfg0.win 4).blk t).view.emb j)
  exact tile_eq_layerRows_at (V m c main_v0) (V m c main_arg1) (V m c main_arg2) (V m c main_v1)
    (iblk m c 0 t) (iblk m c 1 t) (iblk m c 2 t) (iblk m c 3 t) j (((cfg0.win 4).blk t).view.emb j)
    (act_block m c t j) (weight_block m c t j) (scale_block m c t j) (bias_block m c t j)

/-- An index of the result is in point t's tile iff each coordinate is in the tile's range on its axis. -/
theorem mem_tile (t : Fin cfg0.N) (i : S4096x11008.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v2).slice (win0_4.rect t)).set ↔ _
  rw [View.set_slice_whole, Rect.mem_set_unit]
  exact Iff.rfl

/-- Every entry (r, o) of the result lies in the tile of the point at block row r / 256 and block column o / 256. -/
theorem covered (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  have hN : (i 0).val / 256 * 43 + (i 1).val / 256 < cfg0.N := by
    show _ < grid0.N
    rw [N_0]; omega
  obtain ⟨t, ht⟩ : ∃ t : Fin cfg0.N, t.val = (i 0).val / 256 * 43 + (i 1).val / 256 := ⟨⟨_, hN⟩, rfl⟩
  obtain ⟨e40, e41, -⟩ := block_positions t
  refine ⟨t, flush0_4 t, ?_⟩
  rw [mem_tile]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE ROWS ARRAY after the run is `layerRows` of the arrays the region finds. -/
theorem rows_final (c : Dev nD) :
    (dats m 0 c).arrAt 4 cfg0.N = layerRows (V m c main_v0) (V m c main_arg1) (V m c main_arg2) (V m c main_v1) :=
  (dats m 0 c).arrAt_eq_of_cover 4 _ (fun t _ => flushed_eq m c t) covered

end Cert.KernelIdeal.Rows

end
-- ==== Proof.KernelResult.lean ====
/-
  The kernel program's result as a function of its arguments.
  Before the region the program merges the activation's batch and sequence axes into rows and turns the bias into
  a one-row matrix; the weight and the scales go in as they are. The region leaves `layerRows` of those four
  arrays (Proof/Rows.lean). After the region the program splits the rows of the result back into batch and
  sequence. By `layerRows_reshape` (Proof/DequantLinear.lean) the result is `layer` of the four arguments.
-/
import proofs.«121049_j27427661152808_1_alg».proof.Proof.Rows

noncomputable section

namespace Cert.KernelIdeal.Whole

open Cert.KernelIdeal Cert.KernelIdeal.Gen Idealize.ShloMosaic Idealize.ShloMosaic.TcCoe Idealize.SL.Sem
open Idealize.ShloMosaic.ValueIdx Cert.DequantLinear Cert.KernelIdeal.Rows
open Idealize.ShloMosaic.Pipeline (Dat)

variable (m : (ℓ : Loc nD τ sig) → Buf (Elt Ideal) ℓ) (ρ : Dev nD → PrngReg)

/-- The merged activation the region finds is the activation argument, reshaped row-major. -/
theorem entry_act (c : Dev nD) :
    (V m c main_v0 : S4096x4096.Idx → Elt Ideal .f32)
      = shapeCast S4096x4096 (m ((c : Thread nD τ).loc main_arg0)) shapeCasts_S2x2048x4096_S4096x4096 := by
  show StableHlo.after hostOps0 (fun b => m (c, b)) (Proc.devRef .tc main_v0) = _
  after_results
  rfl

/-- The one-row bias the region finds is the bias argument, reshaped. -/
theorem entry_bias (c : Dev nD) :
    (V m c main_v1 : S1x11008.Idx → Elt Ideal .f32)
      = shapeCast S1x11008 (m ((c : Thread nD τ).loc main_arg3)) shapeCasts_S11008_S1x11008 := by
  show StableHlo.after hostOps0 (fun b => m (c, b)) (Proc.devRef .tc main_v1) = _
  after_results
  rfl

/-- The rows array after the region, over the launch contents of the arguments. -/
theorem rows_of_args (c : Dev nD) :
    (dats m 0 c).arrAt 4 cfg0.N
      = layerRows (shapeCast S4096x4096 (m ((c : Thread nD τ).loc main_arg0)) shapeCasts_S2x2048x4096_S4096x4096)
          (m ((c : Thread nD τ).loc main_arg1)) (m ((c : Thread nD τ).loc main_arg2))
          (shapeCast S1x11008 (m ((c : Thread nD τ).loc main_arg3)) shapeCasts_S11008_S1x11008) := by
  rw [rows_final, entry_act, entry_bias, V_main_arg1, V_main_arg2]

/-- The program's result: the reshape after the region applied to the rows array, which is the layer. -/
theorem result_eq (c : Dev nD) :
    Pipeline.afterTail₀ cfgs (dats m) 0 (V0 m) [hostOps1] c main_v3
      = layer (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v3) = _
  after_results
  rw [(Pipeline.withArrays_arr spec0 launch0.win.arr_inj c _ _ 4).trans (rows_of_args m c)]
  exact layerRows_reshape _ _ _ _ _ _ _

/-- The kernel program's run: every weakly fair execution terminates with the result at the layer of the
    arguments' launch contents, the arguments unchanged. -/
theorem run : θ_run defs (onTc (τ := τ) (main (F := Ideal))) ⟨m, fun _ => 0, ρ⟩ fun r => ∀ c : Dev nD,
      r.2.mem ((c : Thread nD τ).loc main_v3)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.ReferenceLinear.lean ====
/-
  The reference program computes the layer of Proof/DequantLinear.lean.
  Its six host operations, read one at a time at an output index (b, s, o): the scale column is copied along
  the feature axis and multiplied into the weight, so the second operand of the product at (o, k) is
  w[o,k] · σ[o,0]; the product contracts the feature axis of the activation with that of the scaled weight,
  giving Σ_k x[b,s,k] · (w[o,k] · σ[o,0]); the bias is copied along batch and sequence and added, giving + β[o].
  That is `layer` entry by entry, with no rearrangement.
-/
import proofs.«121049_j27427661152808_1_alg».proof.Proof.Gen.ReferenceIdeal.Read
import proofs.«121049_j27427661152808_1_alg».proof.Proof.DequantLinear

noncomputable section

namespace Cert.ReferenceIdeal.Linear

open Cert.ReferenceIdeal Cert.ReferenceIdeal.Read Idealize.ShloMosaic Idealize.ShloMosaic.ValueIdx Cert.DequantLinear

/-- The left operand of the product at output (b, s, o) and feature k is the activation at (b, s, k). -/
theorem lhs_at (b : Fin 2) (s : Fin 2048) (o : Fin 11008) (k : Fin 4096) :
    lidx_main_v2 (ix3 b s o) k = ix3 b s k :=
  funext fun a => Fin.ext (by match a with | ⟨0, _⟩ => rfl | ⟨1, _⟩ => rfl | ⟨2, _⟩ => rfl)

/-- The right operand there is the scaled weight at (o, k). -/
theorem rhs_at (b : Fin 2) (s : Fin 2048) (o : Fin 11008) (k : Fin 4096) :
    ridx_main_v2 (ix3 b s o) k = ix2 o k :=
  funext fun a => Fin.ext (by match a with | ⟨0, _⟩ => rfl | ⟨1, _⟩ => rfl)

/-- The scale copied along the features, read at (o, k), is the scale of row o. -/
theorem scale_at (o : Fin 11008) (k : Fin 4096) : idx_main_v0 (ix2 o k) = ix2 o (0 : Fin 1) :=
  funext fun a => Fin.ext (by match a with | ⟨0, _⟩ => rfl | ⟨1, _⟩ => rfl)

/-- The bias copied along batch and sequence, read at (b, s, o), is the bias of output o. -/
theorem bias_at (b : Fin 2) (s : Fin 2048) (o : Fin 11008) : idx_main_v3 (idx_main_v4 (ix3 b s o)) = ix1 o :=
  funext fun a => Fin.ext (by match a with | ⟨0, _⟩ => rfl)

/-- The reference's result, as a function of its four arguments, is the layer. -/
theorem reference_eq_layer (x0 : (⟨S2x2048x4096, .f32⟩ : BufTy).Contents (Elt Ideal)) (x1 : (⟨S11008x4096, .f32⟩ : BufTy).Contents (Elt Ideal))
    (x2 : (⟨S11008x1, .f32⟩ : BufTy).Contents (Elt Ideal)) (x3 : (⟨S11008, .f32⟩ : BufTy).Contents (Elt Ideal)) :
    val_main_v5 (F := Ideal) x0 x1 x2 x3 = layer x0 x1 x2 x3 := by
  funext i
  obtain ⟨b, s, o, rfl⟩ : ∃ (b : Fin 2) (s : Fin 2048) (o : Fin 11008), i = ix3 b s o := ⟨i 0, i 1, i 2, eq_ix3 i⟩
  rw [val_main_v5_apply, val_main_v2_apply, val_main_v4_apply, val_main_v3_apply, layer_ix, bias_at]
  simp only [val_main_v1_apply, val_main_v0_apply, lhs_at, rhs_at, scale_at]
  rfl

end Cert.ReferenceIdeal.Linear

end
-- ==== Proof.lean ====
/-
  The proof of `Cert.Claim`: a linear layer with a per-row scaled weight, tiled 16 × 43 over a grid, against the
  same layer written as one matrix product.

  Both programs, read over the extended reals, compute
      y[b,s,o] = Σ_k x[b,s,k] · (w[o,k] · σ[o,0]) + β[o]
  (`layer`, Proof/DequantLinear.lean): the kernel's narrowing of the product's operands to half precision is the
  identity on exact values, its product into a zero accumulator is the plain sum, and neither side regroups a
  factor or a summand, so no finiteness of the inputs is used.
  * the reference is `layer` entry by entry (Proof/ReferenceLinear.lean);
  * each grid point stores the 256 × 256 tile Σ_k xb[p,k] · (wb[q,k] · sb[q,0]) + bb[0,q] (Proof/Tile.lean), the
    tiles fill the merged-rows result (Proof/Rows.lean), and the reshapes around the region turn that into `layer`
    of the arguments (Proof/KernelResult.lean).
  The three frames are the programs' runs with the result forgotten; the idealization rewrote nothing.
-/
import proofs.«121049_j27427661152808_1_alg».proof.Defs
import proofs.«121049_j27427661152808_1_alg».proof.Proof.Gen.Kernel
import proofs.«121049_j27427661152808_1_alg».proof.Proof.Gen.Kernel.Skeleton
import proofs.«121049_j27427661152808_1_alg».proof.Proof.Gen.Kernel.Launch
import proofs.«121049_j27427661152808_1_alg».proof.Proof.Gen.Kernel.Points
import proofs.«121049_j27427661152808_1_alg».proof.Proof.Gen.Kernel.Frame
import proofs.«121049_j27427661152808_1_alg».proof.Proof.Gen.KernelIdeal
import proofs.«121049_j27427661152808_1_alg».proof.Proof.Gen.KernelIdeal.Skeleton
import proofs.«121049_j27427661152808_1_alg».proof.Proof.Gen.KernelIdeal.Launch
import proofs.«121049_j27427661152808_1_alg».proof.Proof.Gen.KernelIdeal.Points
import proofs.«121049_j27427661152808_1_alg».proof.Proof.Gen.KernelIdeal.Frame
import proofs.«121049_j27427661152808_1_alg».proof.Proof.Gen.ReferenceIdeal
import proofs.«121049_j27427661152808_1_alg».proof.Proof.Gen.ReferenceIdeal.Run
import proofs.«121049_j27427661152808_1_alg».proof.Proof.Gen.ReferenceIdeal.Read
import proofs.«121049_j27427661152808_1_alg».proof.Proof.Gen.Pre_finite_inputs
import proofs.«121049_j27427661152808_1_alg».proof.Proof.KernelResult
import proofs.«121049_j27427661152808_1_alg».proof.Proof.ReferenceLinear
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at `layer` of those
    arguments: the kernel by its tiles, the reference entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Linear.reference_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
